-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x16384 : Shape := ⟨2, ![1024, 16384]⟩
abbrev S16384x1024 : Shape := ⟨2, ![16384, 1024]⟩
abbrev S16384 : Shape := ⟨1, ![16384]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S16384 : S_.BroadcastsInDim S16384 (![] : Fin 0 → Fin S16384.rank)
  reducesTo_S16384_S_d0 : S16384.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  main_v28

def fn {F : FTy → Type} [FloatOps F] (main_arg0 : FVec F S8192x1024 .f32) (main_arg1 : FVec F S1024x16384 .f32) (main_arg2 : FVec F S16384x1024 .f32) (main_arg3 : FVec F S16384 .f32) (main_arg4 : FVec F S1024 .f32) (main_arg5 : FVec F S16384 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_arg5 main_v13 main_v16
-- ==== Kernel.lean ====
abbrev S8192x1024 : Shape := ⟨2, ![8192, 1024]⟩
abbrev S1024x16384 : Shape := ⟨2, ![1024, 16384]⟩
abbrev S16384x1024 : Shape := ⟨2, ![16384, 1024]⟩
abbrev S16384 : Shape := ⟨1, ![16384]⟩
abbrev S1024 : Shape := ⟨1, ![1024]⟩
abbrev S1x16384 : Shape := ⟨2, ![1, 16384]⟩
abbrev S1x1024 : Shape := ⟨2, ![1, 1024]⟩
abbrev S8192x16384 : Shape := ⟨2, ![8192, 16384]⟩
abbrev S1024x1024 : Shape := ⟨2, ![1024, 1024]⟩
abbrev S1024x512 : Shape := ⟨2, ![1024, 512]⟩
abbrev S1x512 : Shape := ⟨2, ![1, 512]⟩
abbrev S512x1024 : Shape := ⟨2, ![512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x16384, .f32⟩
  | .hbm, ⟨2, _⟩ => ⟨S16384x1024, .f32⟩
  | .hbm, ⟨3, _⟩ => ⟨S16384, .f32⟩
  | .hbm, ⟨4, _⟩ => ⟨S1024, .f32⟩
  | .hbm, ⟨5, _⟩ => ⟨S16384, .f32⟩
  | .hbm, ⟨6, _⟩ => ⟨S1x16384, .f32⟩
  | .hbm, ⟨7, _⟩ => ⟨S1x16384, .f32⟩
  | .hbm, ⟨8, _⟩ => ⟨S1x1024, .f32⟩
  | .hbm, ⟨9, _⟩ => ⟨S8192x1024, .f32⟩
  | .hbm, ⟨10, _⟩ => ⟨S8192x16384, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x512, .f32⟩
  | .local _ .vmem, ⟨14, _⟩ => ⟨S1024x512, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v28 : BitVec 1 := Scalar.cmpi .eq arg1 c31_i32
  let v29 : BitVec 32 := Scalar.extui v28
  let c0_i32_18 : BitVec 32 := 0#32
  let v30 : BitVec 1 := Scalar.cmpi .ne v29 c0_i32_18
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16384_S1x16384 : S16384.ShapeCasts S1x16384
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x16384.size a
  hwx0_1 : ∀ i : grid0.Coords, EltTy.bits .f32 = 32 ∨ (Rect.block (s := S1024x16384) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .f32 = 32 ∨ (Rect.block (s := S8192x1024) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x16384.size a
  hwx0_7 : ∀ i : grid0.Coords, EltTy.bits .f32 = 32 ∨ (Rect.block (s := S8192x16384) S1024x512.size (cc0_transform_7 i) (hinb0_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun _ => false | ⟨_ + 8, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x16384 : Shape := ⟨2, ![1024, 16384]⟩
abbrev S16384x1024 : Shape := ⟨2, ![16384, 1024]⟩
abbrev S16384 : Shape := ⟨1, ![16384]⟩
abbrev S1024 : Shape := ⟨1, ![1024]⟩
abbrev S8192x16384 : Shape := ⟨2, ![8192, 16384]⟩
abbrev S1x16384 : Shape := ⟨2, ![1, 16384]⟩
abbrev S_ : Shape := ⟨0, ![]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x16384, .f32⟩
  | .hbm, ⟨2, _⟩ => ⟨S16384x1024, .f32⟩
  | .hbm, ⟨3, _⟩ => ⟨S16384, .f32⟩
  | .hbm, ⟨4, _⟩ => ⟨S1024, .f32⟩
  | .hbm, ⟨5, _⟩ => ⟨S16384, .f32⟩
  | .hbm, ⟨6, _⟩ => ⟨S8192x16384, .f32⟩
  | .hbm, ⟨7, _⟩ => ⟨S1x16384, .f32⟩
  | .hbm, ⟨8, _⟩ => ⟨S8192x16384, .f32⟩
  | .hbm, ⟨9, _⟩ => ⟨S8192x16384, .f32⟩
  | .hbm, ⟨10, _⟩ => ⟨S1x16384, .f32⟩
  | .hbm, ⟨11, _⟩ => ⟨S8192x16384, .f32⟩
  | .hbm, ⟨12, _⟩ => ⟨S8192x16384, .i1⟩
  | .hbm, ⟨13, _⟩ => ⟨S_, .f32⟩
  | .hbm, ⟨14, _⟩ => ⟨S8192x16384, .f32⟩
  | .hbm, ⟨15, _⟩ => ⟨S8192x16384, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x16384_S8192x16384_1_0_0_1_n_n_wf : DotDims.WF S8192x1024 S1024x16384 S8192x16384 [1] [0] [0] [1] [] []
  dot_S8192x16384_S16384x1024_S8192x1024_1_0_0_1_n_n_wf : DotDims.WF S8192x16384 S16384x1024 S8192x1024 [1] [0] [0] [1] [] []

variable [Facts₀]

def dot_S8192x1024_S1024x16384_S8192x16384_1_0_0_1_n_n : DotDims S8192x1024 S1024x16384 S8192x16384 where
  lhsContracting := [1]
  rhsContracting := [0]
  lhsNonContracting := [0]
  rhsNonContracting := [1]
  lhsBatch := []
  rhsBatch := []
  wf := dot_S8192x1024_S1024x16384_S8192x16384_1_0_0_1_n_n_wf
def dot_S8192x16384_S16384x1024_S8192x1024_1_0_0_1_n_n : DotDims S8192x16384 S16384x1024 S8192x1024 where
  lhsContracting := [1]
  rhsContracting := [0]
  lhsNonContracting := [0]
  rhsNonContracting := [1]
  lhsBatch := []
  rhsBatch := []
  wf := dot_S8192x16384_S16384x1024_S8192x1024_1_0_0_1_n_n_wf

class Facts : Prop extends Facts₀ where

variable [Facts]
-- ==== Proof.JumpReluSpec.lean ====
/-
  A sparse-autoencoder layer with a thresholded gate, written once as plain functions of indices over the
  extended reals.

    encode   pre r j     = (Σ_d x[r,d] · Wenc[d,j]) + benc[j]
    gate     act r j     = pre r j  when  pre r j > theta[j],  and 0 otherwise
    decode   decoded r c = (Σ_j act r j · Wdec[j,c]) + bdec[c]

  The decode sum runs over 16384 features. It may be taken 512 features at a time, the 32 partial sums added one
  after the other onto zero: sums of extended reals form a commutative monoid, so the regrouping uses associativity
  and commutativity only and no input needs to be finite.
-/
import Idealize.ShloMosaic.PureOps.Ideal
import Idealize.ShloMosaic.PureOps.Ideal.Laws
import Idealize.ShloMosaic.Lib.ValueIdx

noncomputable section

open scoped BigOperators

namespace Cert.JumpRelu

open Idealize.ShloMosaic Idealize.ShloMosaic.ValueIdx

/-- Activations and reconstruction: 8192 rows of 1024 model coordinates. -/
abbrev Acts : Shape := ⟨2, ![8192, 1024]⟩
/-- Encoder weights: 1024 model coordinates by 16384 features. -/
abbrev WEnc : Shape := ⟨2, ![1024, 16384]⟩
/-- Decoder weights: 16384 features by 1024 model coordinates. -/
abbrev WDec : Shape := ⟨2, ![16384, 1024]⟩
/-- One number per feature (encoder bias, threshold). -/
abbrev Feat : Shape := ⟨1, ![16384]⟩
/-- One number per model coordinate (decoder bias). -/
abbrev Model : Shape := ⟨1, ![1024]⟩
/-- The gated feature activations: 8192 rows of 16384 features. -/
abbrev Codes : Shape := ⟨2, ![8192, 16384]⟩

/-- The gate on one number: it passes when it is strictly above its threshold and is replaced by zero otherwise.
    (Kept as the comparison and selection themselves: both programs apply the same two operations to the same
    numbers, so the gate is never evaluated.) -/
def gate (p th : EReal) : EReal :=
  Scalar.select (FloatOps.cmpf (F := Ideal) (φ := FTy.f32) .ogt p th) p (Ideal.ofBits .f32 0x00000000#32)

section Layer

variable (x : Acts.Idx → EReal) (we : WEnc.Idx → EReal) (wd : WDec.Idx → EReal)
  (be : Feat.Idx → EReal) (bd : Model.Idx → EReal) (th : Feat.Idx → EReal)

/-- Row `r` of the activations against column `j` of the encoder, plus that feature's bias. -/
def pre (r : Fin 8192) (j : Fin 16384) : EReal :=
  (∑ d : Fin 1024, x (ix2 r d) * we (ix2 d j)) + be (ix1 j)

/-- The gated activation of feature `j` on row `r`. -/
def act (r : Fin 8192) (j : Fin 16384) : EReal := gate (pre x we be r j) (th (ix1 j))

/-- Row `r` of the gated activations against column `c` of the decoder, plus that coordinate's bias. -/
def decoded (r : Fin 8192) (c : Fin 1024) : EReal :=
  (∑ j : Fin 16384, act x we be th r j * wd (ix2 j c)) + bd (ix1 c)

/-- The gated activations as an array. -/
def codes : Codes.Idx → EReal := fun i => act x we be th (i 0) (i 1)

/-- The reconstruction as an array. -/
def recon : Acts.Idx → EReal := fun i => decoded x we wd be bd th (i 0) (i 1)

end Layer

/-! ## A sum over the features, 512 at a time -/

/-- Feature `jj` of tile `kt`: the features are cut into 32 consecutive tiles of 512. -/
def feat (kt : Fin 32) (jj : Fin 512) : Fin 16384 := ⟨kt.val * 512 + jj.val, by omega⟩

/-- A sum over all features is the sum over the tiles of the sums inside each tile. -/
theorem sum_tiles (f : Fin 16384 → EReal) : ∑ j, f j = ∑ kt : Fin 32, ∑ jj : Fin 512, f (feat kt jj) := by
  rw [← Equiv.sum_comp (finProdFinEquiv : Fin 32 × Fin 512 ≃ Fin 16384) f, Fintype.sum_prod_type]
  refine Finset.sum_congr rfl fun kt _ => Finset.sum_congr rfl fun jj _ => congrArg f (Fin.ext ?_)
  show jj.val + 512 * kt.val = kt.val * 512 + jj.val
  omega

/-- The same with the tiles' sums added up one after the other onto zero, tile `s`'s sum given as `T s`. -/
theorem sum_tiles_range (f : Fin 16384 → EReal) (T : ℕ → EReal)
    (hT : ∀ kt : Fin 32, T kt.val = ∑ jj : Fin 512, f (feat kt jj)) :
    (0 : EReal) + ∑ s ∈ Finset.range 32, T s = ∑ j, f j := by
  rw [zero_add, Finset.sum_range, sum_tiles]
  exact Finset.sum_congr rfl fun kt _ => hT kt

end Cert.JumpRelu

end
-- ==== Proof.ReferenceIsLayer.lean ====
/-
  The reference program is the layer: read one operation at a time, its second result at row `r` and feature `j`
  is the gate applied to the encode sum plus bias at that feature's threshold, and its first result at row `r` and
  model coordinate `c` is the decode sum of those gated activations plus the decoder bias. The two broadcasts of a
  per-feature (per-coordinate) vector over the rows read the vector at the column; the `where` against a scalar
  zero reads that zero.
-/
import proofs.«159502_j45801531244816_1_alg».proof.Proof.Gen.ReferenceIdeal.Read
import proofs.«159502_j45801531244816_1_alg».proof.Proof.JumpReluSpec

noncomputable section

open scoped BigOperators

namespace Cert.ReferenceIdeal.IsLayer

open Cert.ReferenceIdeal Cert.ReferenceIdeal.Read Idealize.ShloMosaic Idealize.ShloMosaic.ValueIdx Cert.JumpRelu

/-! ## Where each operation reads its operands -/

theorem enc_lhs (r : Fin 8192) (j : Fin 16384) (k : Fin 1024) : lidx_main_v0 (ix2 r j) k = ix2 r k :=
  funext fun a => Fin.ext (by match a with | ⟨0, _⟩ => rfl | ⟨1, _⟩ => rfl)
theorem enc_rhs (r : Fin 8192) (j : Fin 16384) (k : Fin 1024) : ridx_main_v0 (ix2 r j) k = ix2 k j :=
  funext fun a => Fin.ext (by match a with | ⟨0, _⟩ => rfl | ⟨1, _⟩ => rfl)
theorem bias_at (r : Fin 8192) (j : Fin 16384) : idx_main_v1 (idx_main_v2 (ix2 r j)) = ix1 j :=
  funext fun a => Fin.ext (by match a with | ⟨0, _⟩ => rfl)
theorem threshold_at (r : Fin 8192) (j : Fin 16384) : idx_main_v4 (idx_main_v5 (ix2 r j)) = ix1 j :=
  funext fun a => Fin.ext (by match a with | ⟨0, _⟩ => rfl)
theorem dec_lhs (r : Fin 8192) (c : Fin 1024) (k : Fin 16384) : lidx_main_v8 (ix2 r c) k = ix2 r k :=
  funext fun a => Fin.ext (by match a with | ⟨0, _⟩ => rfl | ⟨1, _⟩ => rfl)
theorem dec_rhs (r : Fin 8192) (c : Fin 1024) (k : Fin 16384) : ridx_main_v8 (ix2 r c) k = ix2 k c :=
  funext fun a => Fin.ext (by match a with | ⟨0, _⟩ => rfl | ⟨1, _⟩ => rfl)
theorem dec_bias_at (r : Fin 8192) (c : Fin 1024) : idx_main_v9 (idx_main_v10 (ix2 r c)) = ix1 c :=
  funext fun a => Fin.ext (by match a with | ⟨0, _⟩ => rfl)

variable (x0 : (⟨S8192x1024, .f32⟩ : BufTy).Contents (Elt Ideal)) (x1 : (⟨S1024x16384, .f32⟩ : BufTy).Contents (Elt Ideal))
  (x2 : (⟨S16384x1024, .f32⟩ : BufTy).Contents (Elt Ideal)) (x3 : (⟨S16384, .f32⟩ : BufTy).Contents (Elt Ideal))
  (x4 : (⟨S1024, .f32⟩ : BufTy).Contents (Elt Ideal)) (x5 : (⟨S16384, .f32⟩ : BufTy).Contents (Elt Ideal))

/-- The reference's gated activations are the layer's. -/
theorem codes_eq : val_main_v7 (F := Ideal) x0 x1 x3 x5 = codes x0 x1 x3 x5 := by
  funext i
  obtain ⟨r, j, rfl⟩ : ∃ (r : Fin 8192) (j : Fin 16384), i = ix2 r j := ⟨i 0, i 1, eq_ix2 i⟩
  rw [val_main_v7_apply, val_main_v6_apply, val_main_v3_apply, val_main_v0_apply, val_main_v2_apply, val_main_v1_apply,
    val_main_v5_apply, val_main_v4_apply, val_main_call0_v0_apply, val_main_cst_apply]
  simp only [enc_lhs, enc_rhs, bias_at, threshold_at]
  rfl

/-- The reference's reconstruction is the layer's. -/
theorem recon_eq : val_main_v11 (F := Ideal) x0 x1 x2 x3 x4 x5 = recon x0 x1 x2 x3 x4 x5 := by
  funext i
  obtain ⟨r, c, rfl⟩ : ∃ (r : Fin 8192) (c : Fin 1024), i = ix2 r c := ⟨i 0, i 1, eq_ix2 i⟩
  rw [val_main_v11_apply, val_main_v8_apply, val_main_v10_apply, val_main_v9_apply, codes_eq]
  simp only [dec_lhs, dec_rhs, dec_bias_at]
  rfl

end Cert.ReferenceIdeal.IsLayer

end
-- ==== Proof.KernelPieces.lean ====
/-
  What one grid point leaves behind, case by case, as the body's arithmetic applied to the point's input tiles.

  The grid walks 8 row tiles, and for each of them the 32 feature tiles in order. Every point writes its tile of the
  gated activations; the reconstruction of a row tile is accumulated across its 32 points in a buffer that lives
  from point to point:
    * at the first feature tile the buffer is zeroed and the tile's product with the decoder is added to that zero;
    * at every later feature tile the product is added to what the point before left;
    * at the last feature tile, after adding, the buffer plus the decoder bias is the row tile of the reconstruction.
  Each lemma below says that the stores of one case, read back, are those payloads of the loaded tiles.
-/
import proofs.«159502_j45801531244816_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]
variable (c : Dev nD) (i : grid0.Coords)
  (arg2 : Memref sig .tc .vmem S1024x1024 .f32) (harg2 : arg2.IsWhole) (arg3 : Memref sig .tc .vmem S1024x512 .f32) (harg3 : arg3.IsWhole)
  (arg4 : Memref sig .tc .vmem S1x512 .f32) (harg4 : arg4.IsWhole) (arg5 : Memref sig .tc .vmem S1x512 .f32) (harg5 : arg5.IsWhole)
  (arg6 : Memref sig .tc .vmem S512x1024 .f32) (harg6 : arg6.IsWhole) (arg7 : Memref sig .tc .vmem S1x1024 .f32) (harg7 : arg7.IsWhole)
  (arg8 : Memref sig .tc .vmem S1024x1024 .f32) (harg8 : arg8.IsWhole) (arg9 : Memref sig .tc .vmem S1024x512 .f32) (harg9 : arg9.IsWhole)
  (arg10 : Memref sig .tc .vmem S1024x1024 .f32) (harg10 : arg10.IsWhole)
  (x0 : Vec F S1024x1024 .f32) (x1 : Vec F S1024x512 .f32) (x2 : Vec F S1x512 .f32) (x3 : Vec F S1x512 .f32)
  (x4 : Vec F S512x1024 .f32) (x5 : Vec F S1x1024 .f32) (xs0 : Vec F S1024x1024 .f32)

theorem hz2 : (![0, 0] : Fin 2 → Nat) = fun _ => 0 := by
  funext a; match a with | ⟨0, _⟩ => rfl | ⟨1, _⟩ => rfl

/-! ## First point of a row tile: the accumulator is zeroed, then the tile's product is added -/

theorem acc_first (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5 = k0_pay3 x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, harg4.read_unread, harg5.read_unread, harg6.read_unread, harg7.read_unread, harg8.read_unread, harg10.read_unread, View.readCov_unit_zero (S := S1024x1024) _ hz2,
    View.ld_unit_zero (S := S1024x1024) hz2, View.ld_unit_zero (S := S1024x512) hz2, View.ld_unit_zero (S := S1x512) hz2,
    View.ld_unit_zero (S := S512x1024) hz2, View.ld_unit_zero (S := S1x1024) hz2]

theorem codes_first (hc0 : cond0_0 i) (hc1 : ¬cond0_1 i) :
    out0_A_7 c i arg2 harg2 arg3 harg3 arg4 harg4 arg5 harg5 arg6 harg6 arg7 harg7 arg8 harg8 arg9 harg9 arg10 harg10 hc0 hc1 x0 x1 x2 x3 x4 x5 = k0_pay2 x0 x1 x2 x3 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero (S := S1024x512) hz2]
  simp only [View.readAt_eq_ld, harg2.read_unread, harg3.read_unread, harg4.read_unread, harg5.read_unread, harg6.read_unread, harg7.read_unread, harg8.read_unread, harg10.read_unread, View.readCov_unit_zero (S := S1024x1024) _ hz2,
    View.ld_unit_zero (S := S1024x1024) hz2, View.ld_unit_zero (S := S1024x512) hz2, View.ld_unit_zero (S := S1x512) hz2,
    View.ld_unit_zero (S := S512x1024) hz2, View.ld_unit_zero (S := S1x1024) hz2]

/-! ## A middle point: the tile's product is added to what the point before left -/

theorem acc_middle (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 x4 x5 xs0 = k0_pay3 x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero (S := S1024x1024) hz2]
  simp only [View.readAt_eq_ld, harg2.read_unread, harg3.read_unread, harg4.read_unread, harg5.read_unread, harg6.read_unread, harg7.read_unread, harg8.read_unread, harg10.read_unread, View.readCov_unit_zero (S := S1024x1024) _ hz2,
    View.ld_unit_zero (S := S1024x1024) hz2, View.ld_unit_zero (S := S1024x512) hz2, View.ld_unit_zero (S := S1x512) hz2,
    View.ld_unit_zero (S := S512x1024) hz2, View.ld_unit_zero (S := S1x1024) hz2]

theorem codes_middle (hc0 : ¬cond0_0 i) (hc1 : ¬cond0_1 i) :
    out0_B_7 c i arg2 harg2 arg3 harg3 arg4 harg4 arg5 harg5 arg6 harg6 arg7 harg7 arg8 harg8 arg9 harg9 arg10 harg10 hc0 hc1 x0 x1 x2 x3 x4 x5 xs0 = k0_pay2 x0 x1 x2 x3 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero (S := S1024x512) hz2]
  simp only [View.readAt_eq_ld, harg2.read_unread, harg3.read_unread, harg4.read_unread, harg5.read_unread, harg6.read_unread, harg7.read_unread, harg8.read_unread, harg10.read_unread, View.readCov_unit_zero (S := S1024x1024) _ hz2,
    View.ld_unit_zero (S := S1024x1024) hz2, View.ld_unit_zero (S := S1024x512) hz2, View.ld_unit_zero (S := S1x512) hz2,
    View.ld_unit_zero (S := S512x1024) hz2, View.ld_unit_zero (S := S1x1024) hz2]

/-! ## Last point of a row tile: the last product is added, and the sum plus the bias is the output tile -/

theorem acc_last (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 x4 x5 xs0 = k0_pay3 x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x1024) hz2]
  simp only [View.readAt_eq_ld, harg2.read_unread, harg3.read_unread, harg4.read_unread, harg5.read_unread, harg6.read_unread, harg7.read_unread, harg8.read_unread, harg10.read_unread, View.readCov_unit_zero (S := S1024x1024) _ hz2,
    View.ld_unit_zero (S := S1024x1024) hz2, View.ld_unit_zero (S := S1024x512) hz2, View.ld_unit_zero (S := S1x512) hz2,
    View.ld_unit_zero (S := S512x1024) hz2, View.ld_unit_zero (S := S1x1024) hz2]

theorem codes_last (hc0 : ¬cond0_0 i) (hc1 : cond0_1 i) :
    out0_C_7 c i arg2 harg2 arg3 harg3 arg4 harg4 arg5 harg5 arg6 harg6 arg7 harg7 arg8 harg8 arg9 harg9 arg10 harg10 hc0 hc1 x0 x1 x2 x3 x4 x5 xs0 = k0_pay2 x0 x1 x2 x3 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x512) hz2]
  simp only [View.readAt_eq_ld, harg2.read_unread, harg3.read_unread, harg4.read_unread, harg5.read_unread, harg6.read_unread, harg7.read_unread, harg8.read_unread, harg10.read_unread, View.readCov_unit_zero (S := S1024x1024) _ hz2,
    View.ld_unit_zero (S := S1024x1024) hz2, View.ld_unit_zero (S := S1024x512) hz2, View.ld_unit_zero (S := S1x512) hz2,
    View.ld_unit_zero (S := S512x1024) hz2, View.ld_unit_zero (S := S1x1024) hz2]

theorem recon_last (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xs0 = k0_pay4 (k0_pay3 x0 x1 x2 x3 x4 xs0) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x1024) hz2]
  simp only [View.readAt_eq_ld, harg2.read_unread, harg3.read_unread, harg4.read_unread, harg5.read_unread, harg6.read_unread, harg7.read_unread, harg8.read_unread, harg10.read_unread, View.readCov_unit_zero (S := S1024x1024) _ hz2,
    View.ld_unit_zero (S := S1024x1024) hz2, View.ld_unit_zero (S := S1024x512) hz2, View.ld_unit_zero (S := S1x512) hz2,
    View.ld_unit_zero (S := S512x1024) hz2, View.ld_unit_zero (S := S1x1024) hz2]

end Cert.KernelIdeal.Pieces
end
-- ==== Proof.KernelBodyAt.lean ====
/-
  The body's arithmetic read at one element, at the ideal values (extended reals, exact operations, a change of
  float format the identity).

  With x the [1024,1024] activation tile, W the [1024,512] encoder tile, b and θ the [1,512] bias and threshold
  rows, D the [512,1024] decoder tile, a the [1024,1024] accumulator and β the [1,1024] decoder bias row:
    gated tile     g[p,q]      = gate ((Σ_d x[p,d]·W[d,q]) + b[0,q]) θ[0,q]
    accumulation   a'[p,q]     = a[p,q] + Σ_j g[p,j]·D[j,q]
    zero fill      0
    output tile    o[p,q]      = a[p,q] + β[0,q]
  A product into a zero accumulator is the plain sum over the contracted coordinate; a row broadcast reads the row.
-/
import proofs.«159502_j45801531244816_1_alg».proof.Proof.Gen.KernelIdeal.Skeleton
import proofs.«159502_j45801531244816_1_alg».proof.Proof.JumpReluSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The encode product: a row of the activation tile against a column of the encoder tile -/

theorem lhs_enc_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_enc_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_enc_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_enc_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The encode product into zero, at row `p` and feature `q` of the tile: the sum over the 1024 model coordinates. -/
theorem enc_product_apply (a : FVec Ideal S1024x1024 .bf16) (b : FVec Ideal S1024x512 .bf16) (p : Fin 1024) (q : Fin 512) :
    matmul dot_S1024x1024_S1024x512_S1024x512_1_0_0_1_n_n none a b (constant (F := Ideal) S1024x512 .f32 0x00000000#32) (ix2 p q)
      = ∑ d : Fin 1024, a (ix2 p d) * b (ix2 d q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_enc_0 _ _
    | ⟨1, _⟩ => exact (lhs_enc_1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_enc_0 _ _).trans hk
    | ⟨1, _⟩ => exact rhs_enc_1 _ _)
  rw [el, er]

/-! ## The decode product: a row of the gated tile against a column of the decoder tile -/

theorem lhs_dec_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dec_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dec_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dec_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The decode product into zero, at row `p` and model coordinate `q` of the tile: the sum over the tile's 512 features. -/
theorem dec_product_apply (a : FVec Ideal S1024x512 .bf16) (b : FVec Ideal S512x1024 .bf16) (p q : Fin 1024) :
    matmul dot_S1024x512_S512x1024_S1024x1024_1_0_0_1_n_n none a b (constant (F := Ideal) S1024x1024 .f32 0x00000000#32) (ix2 p q)
      = ∑ j : Fin 512, a (ix2 p j) * b (ix2 j q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_dec_0 _ _
    | ⟨1, _⟩ => exact (lhs_dec_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_dec_0 _ _).trans hk
    | ⟨1, _⟩ => exact rhs_dec_1 _ _)
  rw [el, er]

/-! ## The four payloads at an element -/

/-- The gated tile: the encode sum plus the feature's bias, passed through the gate at the feature's threshold. -/
theorem gated_at (v3 : Vec Ideal S1024x1024 .f32) (v5 : Vec Ideal S1024x512 .f32) (v8 v12 : Vec Ideal S1x512 .f32)
    (p : Fin 1024) (q : Fin 512) :
    k0_pay2 v3 v5 v8 v12 (ix2 p q)
      = Cert.JumpRelu.gate ((∑ d : Fin 1024, v3 (ix2 p d) * v5 (ix2 d q)) + v8 (ix2 (0 : Fin 1) q)) (v12 (ix2 (0 : Fin 1) q)) := by
  have hm := enc_product_apply (truncf .bf16 v3 bitsLt_bf16_f32) (truncf .bf16 v5 bitsLt_bf16_f32) p q
  have hb := broadcastTo_1b_ab_apply (a := 1024) v8 broadcasts_S1x512_S1024x512 p q
  have ht := broadcastTo_1b_ab_apply (a := 1024) v12 broadcasts_S1x512_S1024x512 p q
  unfold k0_pay2 Cert.JumpRelu.gate
  simp only [select_apply, cmpf_apply, addf_apply, broadcast_apply, shapeCast_self]
  rw [hm, hb, ht]
  rfl

/-- The zero fill. -/
theorem zero_at (p q : Fin 1024) : k0_pay1 (F := Ideal) (ix2 p q) = 0 := by
  unfold k0_pay1
  rw [shapeCast_self]
  exact Ideal.ofBits_zero_f32

/-- The accumulation: what was there plus the decode sum over the tile's features. -/
theorem accumulated_at (v3 : Vec Ideal S1024x1024 .f32) (v5 : Vec Ideal S1024x512 .f32) (v8 v12 : Vec Ideal S1x512 .f32)
    (v20 : Vec Ideal S512x1024 .f32) (v22 : Vec Ideal S1024x1024 .f32) (p q : Fin 1024) :
    k0_pay3 v3 v5 v8 v12 v20 v22 (ix2 p q)
      = v22 (ix2 p q) + ∑ j : Fin 512, k0_pay2 v3 v5 v8 v12 (ix2 p j) * v20 (ix2 j q) := by
  have hm := dec_product_apply (truncf .bf16 (k0_pay2 v3 v5 v8 v12) bitsLt_bf16_f32) (truncf .bf16 v20 bitsLt_bf16_f32) p q
  unfold k0_pay3
  rw [shapeCast_self]
  simp only [addf_apply]
  rw [hm]
  rfl

/-- The output tile: the accumulator plus the coordinate's decoder bias. -/
theorem biased_at (v31 : Vec Ideal S1024x1024 .f32) (v32 : Vec Ideal S1x1024 .f32) (p q : Fin 1024) :
    k0_pay4 v31 v32 (ix2 p q) = v31 (ix2 p q) + v32 (ix2 (0 : Fin 1) q) := by
  have hb := broadcastTo_1b_ab_apply (a := 1024) v32 broadcasts_S1x1024_S1024x1024 p q
  unfold k0_pay4
  simp only [addf_apply, shapeCast_self]
  rw [hb]

end Cert.KernelIdeal.Body

end
-- ==== Proof.KernelTiles.lean ====
/-
  Where each tile sits in its array.

  Point `t` of the 8 × 32 grid works on row tile `t / 32` (rows `1024·(t/32) … +1023`) and feature tile `t % 32`
  (features `512·(t%32) … +511`). Its six input tiles are: those rows of the activations (all model coordinates);
  those feature columns of the encoder; those entries of the encoder bias and of the threshold (each first reshaped
  from a vector to one row); those feature rows of the decoder; the whole decoder bias row. Read through these,
  the gated tile the body computes at `t` is the layer's gated activations at the tile's rows and features.
-/
import proofs.«159502_j45801531244816_1_alg».proof.Proof.Gen.KernelIdeal.Frame
import proofs.«159502_j45801531244816_1_alg».proof.Proof.JumpReluSpec
import Idealize.ShloMosaic.Lib.Pipeline.Value
import Idealize.ShloMosaic.Lib.ValueIdx
import Idealize.ShloMosaic.Lib.ValueLayout
import Idealize.ShloMosaic.Lib.StableHlo.Run
import proofs.«159502_j45801531244816_1_alg».proof.Proof.KernelBodyAt

noncomputable section

open scoped BigOperators

namespace Cert.KernelIdeal.Tiles

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

theorem lt256 (t : Fin cfg0.N) : t.val < 256 := lt_of_lt_of_eq t.isLt N_0

/-- Row `p` of the row tile that point `t` works on. -/
def rowOf (t : Fin cfg0.N) (p : Fin 1024) : Fin 8192 :=
  ⟨(t.val / 32) * 1024 + p.val, by have := lt256 t; omega⟩

/-- Feature `q` of the feature tile that point `t` works on. -/
def featOf (t : Fin cfg0.N) (q : Fin 512) : Fin 16384 :=
  Cert.JumpRelu.feat ⟨t.val % 32, Nat.mod_lt _ (by decide)⟩ q

theorem idx0 : ∀ t : Fin cfg0.N, win0_0.index t 0 = t.val / 32 ∧ win0_0.index t 1 = 0 :=
  (by decide +kernel : ∀ t : Fin grid0.N, win0_0.index t 0 = t.val / 32 ∧ win0_0.index t 1 = 0)
theorem idx1 : ∀ t : Fin cfg0.N, win0_1.index t 0 = 0 ∧ win0_1.index t 1 = t.val % 32 :=
  (by decide +kernel : ∀ t : Fin grid0.N, win0_1.index t 0 = 0 ∧ win0_1.index t 1 = t.val % 32)
theorem idx2 : ∀ t : Fin cfg0.N, win0_2.index t 0 = 0 ∧ win0_2.index t 1 = t.val % 32 :=
  (by decide +kernel : ∀ t : Fin grid0.N, win0_2.index t 0 = 0 ∧ win0_2.index t 1 = t.val % 32)
theorem idx3 : ∀ t : Fin cfg0.N, win0_3.index t 0 = 0 ∧ win0_3.index t 1 = t.val % 32 :=
  (by decide +kernel : ∀ t : Fin grid0.N, win0_3.index t 0 = 0 ∧ win0_3.index t 1 = t.val % 32)
theorem idx4 : ∀ t : Fin cfg0.N, win0_4.index t 0 = t.val % 32 ∧ win0_4.index t 1 = 0 :=
  (by decide +kernel : ∀ t : Fin grid0.N, win0_4.index t 0 = t.val % 32 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val / 32 ∧ win0_6.index t 1 = 0 :=
  (by decide +kernel : ∀ t : Fin grid0.N, win0_6.index t 0 = t.val / 32 ∧ win0_6.index t 1 = 0)
theorem idx7 : ∀ t : Fin cfg0.N, win0_7.index t 0 = t.val / 32 ∧ win0_7.index t 1 = t.val % 32 :=
  (by decide +kernel : ∀ t : Fin grid0.N, win0_7.index t 0 = t.val / 32 ∧ win0_7.index t 1 = t.val % 32)

theorem rowOf_val (t : Fin cfg0.N) (p : Fin 1024) : (rowOf t p).val = (t.val / 32) * 1024 + p.val := rfl
theorem featOf_val (t : Fin cfg0.N) (q : Fin 512) : (featOf t q).val = (t.val % 32) * 512 + q.val := rfl

/-! ## The six input tiles, read out of the arrays as the region finds them -/

/-- Rows of the activations. -/
theorem acts_tile (c : Dev nD) (t : Fin cfg0.N) (p : Fin 1024) (q : Fin 1024) :
    (iblk m c 0 t : Vec Ideal S1024x1024 .f32) (ix2 p q) = V m c main_arg0 (ix2 (rowOf t p) q) := by
  unfold iblk
  rw [View.read_apply]
  show V m c main_arg0 _ = _
  congr 1
  funext a
  apply Fin.ext
  match a with
  | ⟨0, _⟩ => show win0_0.index t 0 * 1024 + 1 * p.val = (t.val / 32) * 1024 + p.val; rw [(idx0 t).1]; omega
  | ⟨1, _⟩ => show win0_0.index t 1 * 1024 + 1 * q.val = q.val; rw [(idx0 t).2]; omega

/-- Feature columns of the encoder. -/
theorem wenc_tile (c : Dev nD) (t : Fin cfg0.N) (p : Fin 1024) (q : Fin 512) :
    (iblk m c 1 t : Vec Ideal S1024x512 .f32) (ix2 p q) = V m c main_arg1 (ix2 p (featOf t q)) := by
  unfold iblk
  rw [View.read_apply]
  show V m c main_arg1 _ = _
  congr 1
  funext a
  apply Fin.ext
  match a with
  | ⟨0, _⟩ => show win0_1.index t 0 * 1024 + 1 * p.val = p.val; rw [(idx1 t).1]; omega
  | ⟨1, _⟩ => show win0_1.index t 1 * 512 + 1 * q.val = (t.val % 32) * 512 + q.val; rw [(idx1 t).2]; omega

/-- Entries of the encoder bias, as one row. -/
theorem benc_tile (c : Dev nD) (t : Fin cfg0.N) (p : Fin 1) (q : Fin 512) :
    (iblk m c 2 t : Vec Ideal S1x512 .f32) (ix2 p q) = V m c main_v0 (ix2 (0 : Fin 1) (featOf t q)) := by
  unfold iblk
  rw [View.read_apply]
  show V m c main_v0 _ = _
  congr 1
  funext a
  apply Fin.ext
  match a with
  | ⟨0, _⟩ => show win0_2.index t 0 * 1 + 1 * p.val = (0 : Fin 1).val; rw [(idx2 t).1]; omega
  | ⟨1, _⟩ => show win0_2.index t 1 * 512 + 1 * q.val = (t.val % 32) * 512 + q.val; rw [(idx2 t).2]; omega

/-- Entries of the threshold, as one row. -/
theorem theta_tile (c : Dev nD) (t : Fin cfg0.N) (p : Fin 1) (q : Fin 512) :
    (iblk m c 3 t : Vec Ideal S1x512 .f32) (ix2 p q) = V m c main_v1 (ix2 (0 : Fin 1) (featOf t q)) := by
  unfold iblk
  rw [View.read_apply]
  show V m c main_v1 _ = _
  congr 1
  funext a
  apply Fin.ext
  match a with
  | ⟨0, _⟩ => show win0_3.index t 0 * 1 + 1 * p.val = (0 : Fin 1).val; rw [(idx3 t).1]; omega
  | ⟨1, _⟩ => show win0_3.index t 1 * 512 + 1 * q.val = (t.val % 32) * 512 + q.val; rw [(idx3 t).2]; omega

/-- Feature rows of the decoder. -/
theorem wdec_tile (c : Dev nD) (t : Fin cfg0.N) (p : Fin 512) (q : Fin 1024) :
    (iblk m c 4 t : Vec Ideal S512x1024 .f32) (ix2 p q) = V m c main_arg2 (ix2 (featOf t p) q) := by
  unfold iblk
  rw [View.read_apply]
  show V m c main_arg2 _ = _
  congr 1
  funext a
  apply Fin.ext
  match a with
  | ⟨0, _⟩ => show win0_4.index t 0 * 512 + 1 * p.val = (t.val % 32) * 512 + p.val; rw [(idx4 t).1]; omega
  | ⟨1, _⟩ => show win0_4.index t 1 * 1024 + 1 * q.val = q.val; rw [(idx4 t).2]; omega

/-- The decoder bias, as one row. -/
theorem bdec_tile (c : Dev nD) (t : Fin cfg0.N) (p : Fin 1) (q : Fin 1024) :
    (iblk m c 5 t : Vec Ideal S1x1024 .f32) (ix2 p q) = V m c main_v2 (ix2 (0 : Fin 1) q) := by
  unfold iblk
  rw [View.read_apply]
  show V m c main_v2 _ = _
  congr 1
  funext a
  apply Fin.ext
  match a with
  | ⟨0, _⟩ => show win0_5.index t 0 * 1 + 1 * p.val = (0 : Fin 1).val; rw [(idx5 t).1]; omega
  | ⟨1, _⟩ => show win0_5.index t 1 * 1024 + 1 * q.val = q.val; rw [(idx5 t).2]; omega

/-! ## The three one-row arrays are the vectors reshaped -/

theorem benc_row (c : Dev nD) (j : Fin 16384) :
    (V m c main_v0 : Vec Ideal S1x16384 .f32) (ix2 (0 : Fin 1) j) = m ((c : Thread nD τ).loc main_arg3) (ix1 j) := by
  dsimp only [V, hostOps0]
  after_results
  exact shapeCast_a_1a_apply _ shapeCasts_S16384_S1x16384 0 j

theorem theta_row (c : Dev nD) (j : Fin 16384) :
    (V m c main_v1 : Vec Ideal S1x16384 .f32) (ix2 (0 : Fin 1) j) = m ((c : Thread nD τ).loc main_arg5) (ix1 j) := by
  dsimp only [V, hostOps0]
  after_results
  exact shapeCast_a_1a_apply _ shapeCasts_S16384_S1x16384 0 j

theorem bdec_row (c : Dev nD) (j : Fin 1024) :
    (V m c main_v2 : Vec Ideal S1x1024 .f32) (ix2 (0 : Fin 1) j) = m ((c : Thread nD τ).loc main_arg4) (ix1 j) := by
  dsimp only [V, hostOps0]
  after_results
  exact shapeCast_a_1a_apply _ shapeCasts_S1024_S1x1024 0 j

/-! ## The arrays and the tiles by name -/

/-- The argument arrays on device `c`. -/
abbrev acts (c : Dev nD) : Vec Ideal S8192x1024 .f32 := m ((c : Thread nD τ).loc main_arg0)
abbrev wenc (c : Dev nD) : Vec Ideal S1024x16384 .f32 := m ((c : Thread nD τ).loc main_arg1)
abbrev wdec (c : Dev nD) : Vec Ideal S16384x1024 .f32 := m ((c : Thread nD τ).loc main_arg2)
abbrev benc (c : Dev nD) : Vec Ideal S16384 .f32 := m ((c : Thread nD τ).loc main_arg3)
abbrev bdec (c : Dev nD) : Vec Ideal S1024 .f32 := m ((c : Thread nD τ).loc main_arg4)
abbrev theta (c : Dev nD) : Vec Ideal S16384 .f32 := m ((c : Thread nD τ).loc main_arg5)

/-- Point `t`'s input tiles. -/
abbrev xblk (c : Dev nD) (t : Fin cfg0.N) : Vec Ideal S1024x1024 .f32 := iblk m c 0 t
abbrev weblk (c : Dev nD) (t : Fin cfg0.N) : Vec Ideal S1024x512 .f32 := iblk m c 1 t
abbrev beblk (c : Dev nD) (t : Fin cfg0.N) : Vec Ideal S1x512 .f32 := iblk m c 2 t
abbrev thblk (c : Dev nD) (t : Fin cfg0.N) : Vec Ideal S1x512 .f32 := iblk m c 3 t
abbrev wdblk (c : Dev nD) (t : Fin cfg0.N) : Vec Ideal S512x1024 .f32 := iblk m c 4 t
abbrev bdblk (c : Dev nD) (t : Fin cfg0.N) : Vec Ideal S1x1024 .f32 := iblk m c 5 t

theorem xblk_at (c : Dev nD) (t : Fin cfg0.N) (p d : Fin 1024) : xblk m c t (ix2 p d) = acts m c (ix2 (rowOf t p) d) :=
  (acts_tile m c t p d).trans (congrFun (V_main_arg0 m c) _)
theorem weblk_at (c : Dev nD) (t : Fin cfg0.N) (d : Fin 1024) (q : Fin 512) : weblk m c t (ix2 d q) = wenc m c (ix2 d (featOf t q)) :=
  (wenc_tile m c t d q).trans (congrFun (V_main_arg1 m c) _)
theorem beblk_at (c : Dev nD) (t : Fin cfg0.N) (q : Fin 512) : beblk m c t (ix2 (0 : Fin 1) q) = benc m c (ix1 (featOf t q)) :=
  (benc_tile m c t 0 q).trans (benc_row m c _)
theorem thblk_at (c : Dev nD) (t : Fin cfg0.N) (q : Fin 512) : thblk m c t (ix2 (0 : Fin 1) q) = theta m c (ix1 (featOf t q)) :=
  (theta_tile m c t 0 q).trans (theta_row m c _)
theorem wdblk_at (c : Dev nD) (t : Fin cfg0.N) (j : Fin 512) (q : Fin 1024) : wdblk m c t (ix2 j q) = wdec m c (ix2 (featOf t j) q) :=
  (wdec_tile m c t j q).trans (congrFun (V_main_arg2 m c) _)
theorem bdblk_at (c : Dev nD) (t : Fin cfg0.N) (q : Fin 1024) : bdblk m c t (ix2 (0 : Fin 1) q) = bdec m c (ix1 q) :=
  (bdec_tile m c t 0 q).trans (bdec_row m c _)

/-! ## The gated tile at a point -/

/-- Row `p`, feature `q` of the gated tile at point `t` is the layer's gated activation of that row and feature. -/
theorem gated_tile (c : Dev nD) (t : Fin cfg0.N) (p : Fin 1024) (q : Fin 512) :
    k0_pay2 (xblk m c t) (weblk m c t) (beblk m c t) (thblk m c t) (ix2 p q)
      = Cert.JumpRelu.act (acts m c) (wenc m c) (benc m c) (theta m c) (rowOf t p) (featOf t q) := by
  rw [Cert.KernelIdeal.Body.gated_at]
  simp only [xblk_at, weblk_at, beblk_at, thblk_at]
  rfl

end Cert.KernelIdeal.Tiles

end
-- ==== Proof.KernelPoints.lean ====
/-
  What each grid point leaves, in the layer's terms.

  Every point stores the gated tile of its rows and features. The buffer carried across the 32 points of a row tile
  holds, after point `t`, zero plus the decode sums of the feature tiles `0 … t % 32` of that row tile, added in that
  order: it starts from the zero fill at the row tile's first point and every later point adds its own tile's sum to
  what the point before left. At the row tile's last point the 32 tile sums are the whole decode sum over the 16384
  features (sums of extended reals regroup freely), and the tile written out is that sum plus the decoder bias: the
  layer's reconstruction at the tile's rows.
-/
import proofs.«159502_j45801531244816_1_alg».proof.Proof.Gen.KernelIdeal.Value
import proofs.«159502_j45801531244816_1_alg».proof.Proof.KernelPieces
import proofs.«159502_j45801531244816_1_alg».proof.Proof.KernelBodyAt
import proofs.«159502_j45801531244816_1_alg».proof.Proof.KernelTiles

noncomputable section

open scoped BigOperators

namespace Cert.KernelIdeal.Points

open Cert.KernelIdeal Cert.KernelIdeal.Gen Cert.KernelIdeal.Value Cert.KernelIdeal.Tiles Idealize.ShloMosaic Idealize.ShloMosaic.TcCoe Idealize.ShloMosaic.ValueIdx Idealize.SL.Sem

variable (m : (ℓ : Loc nD τ sig) → Buf (Elt Ideal) ℓ)

/-! ## The gated tile, stored at every point -/

theorem codes_at (c : Dev nD) (t : Fin cfg0.N) :
    (outsAt0 m c t.val t.isLt).2.1 = k0_pay2 (xblk m c t) (weblk m c t) (beblk m c t) (thblk m c t) := by
  have hN := lt256 t
  by_cases h0 : t.val % 32 = 0
  · have h1 : ¬t.val % 32 = 31 := by omega
    rw [outsAt0_A m c t h0 h1]; dsimp only
    exact Pieces.codes_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) ((hcond0_0 t).mpr h0) (fun h => h1 ((hcond0_1 t).mp h))
  · by_cases h1 : t.val % 32 = 31
    · rw [outsAt0_C m c t h0 h1]; dsimp only
      exact Pieces.codes_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h => h0 ((hcond0_0 t).mp h)) ((hcond0_1 t).mpr h1)
    · rw [outsAt0_B m c t h0 h1]; dsimp only
      exact Pieces.codes_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h => h0 ((hcond0_0 t).mp h)) (fun h => h1 ((hcond0_1 t).mp h))

/-! ## One step of the carried buffer -/

/-- At the first point of a row tile the buffer is the zero fill plus that point's tile sum, whatever it held. -/
theorem step_first (c : Dev nD) (n : ℕ) (hb : n < cfg0.N) (h0 : n % 32 = 0) (acc : Vec Ideal S1024x1024 .f32) :
    scAt0_0 m c n hb acc = k0_pay3 (xblk m c (⟨n, hb⟩ : Fin cfg0.N)) (weblk m c (⟨n, hb⟩ : Fin cfg0.N)) (beblk m c (⟨n, hb⟩ : Fin cfg0.N)) (thblk m c (⟨n, hb⟩ : Fin cfg0.N)) (wdblk m c (⟨n, hb⟩ : Fin cfg0.N)) (k0_pay1 (F := Ideal)) := by
  have hN : n < 256 := lt_of_lt_of_eq hb N_0
  have h1 : ¬n % 32 = 31 := by omega
  unfold scAt0_0
  rw [dif_pos h0, dif_neg h1]
  exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) ((hcond0_0 (⟨n, hb⟩ : Fin cfg0.N)).mpr h0) (fun h => h1 ((hcond0_1 (⟨n, hb⟩ : Fin cfg0.N)).mp h))

/-- At every later point it is what the point before left plus that point's tile sum. -/
theorem step_later (c : Dev nD) (n : ℕ) (hb : n < cfg0.N) (h0 : ¬n % 32 = 0) (acc : Vec Ideal S1024x1024 .f32) :
    scAt0_0 m c n hb acc = k0_pay3 (xblk m c (⟨n, hb⟩ : Fin cfg0.N)) (weblk m c (⟨n, hb⟩ : Fin cfg0.N)) (beblk m c (⟨n, hb⟩ : Fin cfg0.N)) (thblk m c (⟨n, hb⟩ : Fin cfg0.N)) (wdblk m c (⟨n, hb⟩ : Fin cfg0.N)) acc := by
  unfold scAt0_0
  rw [dif_neg h0]
  by_cases h1 : n % 32 = 31
  · rw [dif_pos h1]
    exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (fun h => h0 ((hcond0_0 (⟨n, hb⟩ : Fin cfg0.N)).mp h)) ((hcond0_1 (⟨n, hb⟩ : Fin cfg0.N)).mpr h1)
  · rw [dif_neg h1]
    exact Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (fun h => h0 ((hcond0_0 (⟨n, hb⟩ : Fin cfg0.N)).mp h)) (fun h => h1 ((hcond0_1 (⟨n, hb⟩ : Fin cfg0.N)).mp h))

/-- Point `n`'s tile sum at row `p` and model coordinate `q` of the tile: its gated tile's row against the
    decoder tile's column (zero past the grid, where nothing is ever asked of it). -/
def addend (c : Dev nD) (n : ℕ) (p q : Fin 1024) : EReal :=
  if h : n < cfg0.N then
    ∑ j : Fin 512, k0_pay2 (xblk m c ⟨n, h⟩) (weblk m c ⟨n, h⟩) (beblk m c ⟨n, h⟩) (thblk m c ⟨n, h⟩) (ix2 p j) * wdblk m c ⟨n, h⟩ (ix2 j q)
  else 0

theorem addend_eq (c : Dev nD) (n : ℕ) (h : n < cfg0.N) (p q : Fin 1024) :
    addend m c n p q = ∑ j : Fin 512, k0_pay2 (xblk m c ⟨n, h⟩) (weblk m c ⟨n, h⟩) (beblk m c ⟨n, h⟩) (thblk m c ⟨n, h⟩) (ix2 p j) * wdblk m c ⟨n, h⟩ (ix2 j q) :=
  dif_pos h

/-! ## The carried buffer after a point: zero plus the tile sums so far -/

theorem acc_after (c : Dev nD) (t : Fin cfg0.N) (p q : Fin 1024) :
    (outsAt0 m c t.val t.isLt).2.2 (ix2 p q)
      = 0 + ∑ s ∈ Finset.range (t.val % 32 + 1), addend m c (32 * (t.val / 32) + s) p q := by
  have hN := lt256 t
  rw [soutsAt0_0_eq m c t]
  refine Pipeline.accAt_add_apply (fun n h => scAt0_0 m c n h (VS0_0.read (Elt Ideal) VS0_0.junk)) (scAt0_0 m c)
    (fun _ => (0 : EReal)) (fun n i => addend m c n (i 0) (i 1)) (32 * (t.val / 32)) 31 ?_ ?_ (t.val % 32) (by omega) _ (ix2 p q)
  · intro h i
    obtain ⟨p', q', rfl⟩ : ∃ (p' q' : Fin 1024), i = ix2 p' q' := ⟨i 0, i 1, eq_ix2 i⟩
    show scAt0_0 m c (32 * (t.val / 32)) h _ (ix2 p' q') = 0 + addend m c (32 * (t.val / 32)) p' q'
    rw [step_first m c _ h (by omega), Body.accumulated_at, Body.zero_at, addend_eq m c _ h]
  · intro n h acc i hlo hhi
    obtain ⟨p', q', rfl⟩ : ∃ (p' q' : Fin 1024), i = ix2 p' q' := ⟨i 0, i 1, eq_ix2 i⟩
    show scAt0_0 m c n h acc (ix2 p' q') = acc (ix2 p' q') + addend m c n p' q'
    rw [step_later m c n h (by omega), Body.accumulated_at, addend_eq m c _ h]

/-! ## The last point of a row tile -/

theorem acc_last_step (c : Dev nD) (t : Fin cfg0.N) (h0 : ¬t.val % 32 = 0) (h1 : t.val % 32 = 31) :
    (outsAt0 m c t.val t.isLt).2.2 = k0_pay3 (xblk m c t) (weblk m c t) (beblk m c t) (thblk m c t) (wdblk m c t) (outsAt0 m c (t.val - 1) (Nat.lt_of_le_of_lt (Nat.sub_le _ _) t.isLt)).2.2 := by
  rw [outsAt0_C m c t h0 h1]; dsimp only
  exact Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h => h0 ((hcond0_0 t).mp h)) ((hcond0_1 t).mpr h1)

/-- The tile written out there is the buffer after the point plus the decoder bias row. -/
theorem recon_tile (c : Dev nD) (t : Fin cfg0.N) (h0 : ¬t.val % 32 = 0) (h1 : t.val % 32 = 31) :
    (outsAt0 m c t.val t.isLt).1 = k0_pay4 ((outsAt0 m c t.val t.isLt).2.2) (bdblk m c t) := by
  rw [acc_last_step m c t h0 h1]
  rw [outsAt0_C m c t h0 h1]; dsimp only
  exact Pieces.recon_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h => h0 ((hcond0_0 t).mp h)) ((hcond0_1 t).mpr h1)

/-- Tile `kt`'s sum within the row tile of `t`, in the layer's terms. -/
theorem addend_layer (c : Dev nD) (t : Fin cfg0.N) (kt : Fin 32) (p q : Fin 1024) :
    addend m c (32 * (t.val / 32) + kt.val) p q
      = ∑ jj : Fin 512, Cert.JumpRelu.act (acts m c) (wenc m c) (benc m c) (theta m c) (rowOf t p) (Cert.JumpRelu.feat kt jj)
          * wdec m c (ix2 (Cert.JumpRelu.feat kt jj) q) := by
  have hN := lt256 t
  have hk := kt.isLt
  have h : 32 * (t.val / 32) + kt.val < cfg0.N := lt_of_lt_of_eq (by omega : 32 * (t.val / 32) + kt.val < 256) N_0.symm
  rw [addend_eq m c _ h]
  refine Finset.sum_congr rfl fun jj _ => ?_
  rw [gated_tile, wdblk_at]
  have er : rowOf (⟨32 * (t.val / 32) + kt.val, h⟩ : Fin cfg0.N) p = rowOf t p := Fin.ext (by
    show (32 * (t.val / 32) + kt.val) / 32 * 1024 + p.val = t.val / 32 * 1024 + p.val
    omega)
  have ef : featOf (⟨32 * (t.val / 32) + kt.val, h⟩ : Fin cfg0.N) jj = Cert.JumpRelu.feat kt jj := Fin.ext (by
    show (32 * (t.val / 32) + kt.val) % 32 * 512 + jj.val = kt.val * 512 + jj.val
    omega)
  rw [er, ef]

/-- At a row tile's last point the tile written out is the layer's reconstruction at the tile's rows. -/
theorem recon_at (c : Dev nD) (t : Fin cfg0.N) (h0 : ¬t.val % 32 = 0) (h1 : t.val % 32 = 31) (p q : Fin 1024) :
    (outsAt0 m c t.val t.isLt).1 (ix2 p q)
      = Cert.JumpRelu.decoded (acts m c) (wenc m c) (wdec m c) (benc m c) (bdec m c) (theta m c) (rowOf t p) q := by
  rw [recon_tile m c t h0 h1, Body.biased_at, acc_after, bdblk_at, h1]
  unfold Cert.JumpRelu.decoded
  exact congrArg (· + bdec m c (ix1 q)) (Cert.JumpRelu.sum_tiles_range
    (fun j => Cert.JumpRelu.act (acts m c) (wenc m c) (benc m c) (theta m c) (rowOf t p) j * wdec m c (ix2 j q))
    (fun s => addend m c (32 * (t.val / 32) + s) p q) (fun kt => addend_layer m c t kt p q))

end Cert.KernelIdeal.Points

end
-- ==== Proof.KernelArrays.lean ====
/-
  From tiles to arrays.

  The tile of gated activations a point writes back is the block, at that point's rows and features, of the layer's
  array of gated activations; the 256 blocks tile the [8192,16384] array, so after the run the array is the layer's.
  The reconstruction tile is written back only at the last point of each row tile, where it is the block, at that
  row tile, of the layer's reconstruction; those 8 blocks tile the [8192,1024] array.
-/
import proofs.«159502_j45801531244816_1_alg».proof.Proof.KernelPoints

noncomputable section

open scoped BigOperators

namespace Cert.KernelIdeal.Arrays

open Cert.KernelIdeal Cert.KernelIdeal.Gen Cert.KernelIdeal.Value Cert.KernelIdeal.Tiles Cert.KernelIdeal.Points Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer's gated activations of the argument arrays on device `c`. -/
abbrev codesArr (c : Dev nD) : S8192x16384.Idx → EReal :=
  Cert.JumpRelu.codes (acts m c) (wenc m c) (benc m c) (theta m c)

/-- The layer's reconstruction of the argument arrays on device `c`. -/
abbrev reconArr (c : Dev nD) : S8192x1024.Idx → EReal :=
  Cert.JumpRelu.recon (acts m c) (wenc m c) (wdec m c) (benc m c) (bdec m c) (theta m c)

/-! ## The gated activations -/

theorem gated_tile_fn (c : Dev nD) (t : Fin cfg0.N) :
    k0_pay2 (xblk m c t) (weblk m c t) (beblk m c t) (thblk m c t)
      = fun y : S1024x512.Idx => Cert.JumpRelu.act (acts m c) (wenc m c) (benc m c) (theta m c) (rowOf t (y 0)) (featOf t (y 1)) := by
  funext y
  obtain ⟨p, q, rfl⟩ : ∃ (p : Fin 1024) (q : Fin 512), y = ix2 p q := ⟨y 0, y 1, eq_ix2 y⟩
  exact gated_tile m c t p q

/-- What point `t` writes back is block `t` of the layer's gated activations. -/
theorem flushed7_eq (c : Dev nD) (t : Fin cfg0.N) :
    (dats m 0 c).flushed 7 t = ((cfg0.win 7).blk t).view.read (Elt Ideal) (codesArr m c) := by
  rw [flushed7, codes_at, gated_tile_fn]
  funext j
  show Cert.JumpRelu.act (acts m c) (wenc m c) (benc m c) (theta m c) (rowOf t (j 0)) (featOf t (j 1))
    = codesArr m c (((cfg0.win 7).blk t).view.emb j)
  have he : ((cfg0.win 7).blk t).view.emb j = (ix2 (rowOf t (j 0)) (featOf t (j 1)) : S8192x16384.Idx) := by
    funext a; apply Fin.ext
    match a with
    | ⟨0, _⟩ => show win0_7.index t 0 * 1024 + 1 * (j 0).val = (t.val / 32) * 1024 + (j 0).val; rw [(idx7 t).1]; omega
    | ⟨1, _⟩ => show win0_7.index t 1 * 512 + 1 * (j 1).val = (t.val % 32) * 512 + (j 1).val; rw [(idx7 t).2]; omega
  rw [he]
  rfl

theorem mem_blk7 (t : Fin cfg0.N) (i : S8192x16384.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v3_1).slice (win0_7.rect t)).set ↔ _
  rw [View.set_slice_whole, Rect.mem_set_unit]
  exact Iff.rfl

/-- Row `r`, feature `j` lies in the block of the point of row tile `r / 1024` and feature tile `j / 512`. -/
theorem cover7 (i : S8192x16384.Idx) : ∃ t : Fin cfg0.N, (cfg0.win 7).flush t = true ∧ i ∈ ((cfg0.win 7).blk t).view.set := by
  have hi0 : (i 0).val < 8192 := (i 0).isLt
  have hi1 : (i 1).val < 16384 := (i 1).isLt
  have hlt : (i 0).val / 1024 * 32 + (i 1).val / 512 < cfg0.N := lt_of_lt_of_eq (by omega : _ < 256) N_0.symm
  refine ⟨⟨(i 0).val / 1024 * 32 + (i 1).val / 512, hlt⟩, flush0_7 _, ?_⟩
  rw [mem_blk7]
  obtain ⟨e0, e1⟩ := idx7 ⟨(i 0).val / 1024 * 32 + (i 1).val / 512, hlt⟩
  intro a
  match a with
  | ⟨0, _⟩ =>
    show win0_7.index ⟨(i 0).val / 1024 * 32 + (i 1).val / 512, hlt⟩ 0 * 1024 ≤ (i 0).val ∧ (i 0).val < win0_7.index ⟨(i 0).val / 1024 * 32 + (i 1).val / 512, hlt⟩ 0 * 1024 + 1024
    rw [e0]; show ((i 0).val / 1024 * 32 + (i 1).val / 512) / 32 * 1024 ≤ (i 0).val ∧ (i 0).val < ((i 0).val / 1024 * 32 + (i 1).val / 512) / 32 * 1024 + 1024
    omega
  | ⟨1, _⟩ =>
    show win0_7.index ⟨(i 0).val / 1024 * 32 + (i 1).val / 512, hlt⟩ 1 * 512 ≤ (i 1).val ∧ (i 1).val < win0_7.index ⟨(i 0).val / 1024 * 32 + (i 1).val / 512, hlt⟩ 1 * 512 + 512
    rw [e1]; show ((i 0).val / 1024 * 32 + (i 1).val / 512) % 32 * 512 ≤ (i 1).val ∧ (i 1).val < ((i 0).val / 1024 * 32 + (i 1).val / 512) % 32 * 512 + 512
    omega

/-- After the run the second result is the layer's gated activations. -/
theorem final7 (c : Dev nD) : (dats m 0 c).arrAt 7 cfg0.N = codesArr m c :=
  (dats m 0 c).arrAt_eq_of_cover 7 _ (fun t _ => flushed7_eq m c t) cover7

/-! ## The reconstruction -/

theorem recon_tile_fn (c : Dev nD) (t : Fin cfg0.N) (h0 : ¬t.val % 32 = 0) (h1 : t.val % 32 = 31) :
    (outsAt0 m c t.val t.isLt).1
      = fun y : S1024x1024.Idx => Cert.JumpRelu.decoded (acts m c) (wenc m c) (wdec m c) (benc m c) (bdec m c) (theta m c) (rowOf t (y 0)) (y 1) := by
  funext y
  obtain ⟨p, q, rfl⟩ : ∃ (p q : Fin 1024), y = ix2 p q := ⟨y 0, y 1, eq_ix2 y⟩
  exact recon_at m c t h0 h1 p q

/-- What the last point of a row tile writes back is that row tile's block of the layer's reconstruction. -/
theorem flushed6_eq (c : Dev nD) (t : Fin cfg0.N) (hf : (cfg0.win 6).flush t = true) :
    (dats m 0 c).flushed 6 t = ((cfg0.win 6).blk t).view.read (Elt Ideal) (reconArr m c) := by
  have h1 : t.val % 32 = 31 := (flush0_6 t).mp hf
  have h0 : ¬t.val % 32 = 0 := by omega
  rw [flushed6, recon_tile_fn m c t h0 h1]
  funext j
  show Cert.JumpRelu.decoded (acts m c) (wenc m c) (wdec m c) (benc m c) (bdec m c) (theta m c) (rowOf t (j 0)) (j 1)
    = reconArr m c (((cfg0.win 6).blk t).view.emb j)
  have he : ((cfg0.win 6).blk t).view.emb j = (ix2 (rowOf t (j 0)) (j 1 : Fin 1024) : S8192x1024.Idx) := by
    funext a; apply Fin.ext
    match a with
    | ⟨0, _⟩ => show win0_6.index t 0 * 1024 + 1 * (j 0).val = (t.val / 32) * 1024 + (j 0).val; rw [(idx6 t).1]; omega
    | ⟨1, _⟩ => show win0_6.index t 1 * 1024 + 1 * (j 1).val = (j 1).val; rw [(idx6 t).2]; omega
  rw [he]
  rfl

theorem mem_blk6 (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v3_0).slice (win0_6.rect t)).set ↔ _
  rw [View.set_slice_whole, Rect.mem_set_unit]
  exact Iff.rfl

/-- Row `r` lies in the block written back at the last point of row tile `r / 1024`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hlt : (i 0).val / 1024 * 32 + 31 < cfg0.N := lt_of_lt_of_eq (by omega : _ < 256) N_0.symm
  refine ⟨⟨(i 0).val / 1024 * 32 + 31, hlt⟩, (flush0_6 _).mpr (by show ((i 0).val / 1024 * 32 + 31) % 32 = 31; omega), ?_⟩
  rw [mem_blk6]
  obtain ⟨e0, e1⟩ := idx6 ⟨(i 0).val / 1024 * 32 + 31, hlt⟩
  intro a
  match a with
  | ⟨0, _⟩ =>
    show win0_6.index ⟨(i 0).val / 1024 * 32 + 31, hlt⟩ 0 * 1024 ≤ (i 0).val ∧ (i 0).val < win0_6.index ⟨(i 0).val / 1024 * 32 + 31, hlt⟩ 0 * 1024 + 1024
    rw [e0]; show ((i 0).val / 1024 * 32 + 31) / 32 * 1024 ≤ (i 0).val ∧ (i 0).val < ((i 0).val / 1024 * 32 + 31) / 32 * 1024 + 1024
    omega
  | ⟨1, _⟩ =>
    show win0_6.index ⟨(i 0).val / 1024 * 32 + 31, hlt⟩ 1 * 1024 ≤ (i 1).val ∧ (i 1).val < win0_6.index ⟨(i 0).val / 1024 * 32 + 31, hlt⟩ 1 * 1024 + 1024
    rw [e1]; omega

/-- After the run the first result is the layer's reconstruction. -/
theorem final6 (c : Dev nD) : (dats m 0 c).arrAt 6 cfg0.N = reconArr m c :=
  (dats m 0 c).arrAt_eq_of_cover 6 _ (fun t hf => flushed6_eq m c t hf) cover6

/-! ## The run -/

/-- Every weakly fair execution of the kernel's program ends with the reconstruction and the gated activations of
    the layer in its two results, and its arguments as they were. -/
theorem run : θ_run defs (onTc (τ := τ) (main (F := Ideal))) ⟨m, fun _ => 0, ρ⟩ fun r => ∀ c : Dev nD,
      r.2.mem ((c : Thread nD τ).loc main_v3_0) = reconArr m c
      ∧ r.2.mem ((c : Thread nD τ).loc main_v3_1) = codesArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.Arrays

end
-- ==== Proof.lean ====
/-
  A sparse-autoencoder layer with a thresholded gate: a fused, tiled kernel against the plain formulas.

  Both programs compute, from activations x[8192,1024], encoder W[1024,16384], decoder D[16384,1024], biases b, β
  and thresholds θ:
      act[r,j]   = gate ((Σ_d x[r,d]·W[d,j]) + b[j]) θ[j]          (passes when above the threshold, else zero)
      recon[r,c] = (Σ_j act[r,j]·D[j,c]) + β[c]
  and return (recon, act). The reference does it with two whole matrix products. The kernel walks 8 row tiles by
  32 feature tiles; at each point it computes the tile of `act`, writes it out, and adds that tile's share of the
  decode sum into a buffer it zeroed at the row tile's first point; at the last feature tile it adds β and writes the
  row tile of `recon`. Over the extended reals every operation is exact and a change of float format is the
  identity, so the kernel's reconstruction is 0 plus the 32 partial decode sums in order, plus β. That is the
  reference's one sum over 16384 features regrouped, which holds by associativity and commutativity alone: no
  input needs to be finite, and the precondition is never opened.

  The modules: JumpReluSpec (the formulas and the regrouping law), ReferenceIsLayer (the reference is the formulas),
  KernelPieces / KernelBodyAt / KernelTiles / KernelPoints / KernelArrays (the kernel's two result arrays are the
  formulas' arrays). The kernel's frames are the generated ones; the reference's frame is its run with the results
  dropped; no rewrite was applied when the kernel was idealized, so nothing is owed for it.
-/
import proofs.«159502_j45801531244816_1_alg».proof.Defs
import proofs.«159502_j45801531244816_1_alg».proof.Proof.Gen.Kernel
import proofs.«159502_j45801531244816_1_alg».proof.Proof.Gen.Kernel.Skeleton
import proofs.«159502_j45801531244816_1_alg».proof.Proof.Gen.Kernel.Launch
import proofs.«159502_j45801531244816_1_alg».proof.Proof.Gen.Kernel.Points
import proofs.«159502_j45801531244816_1_alg».proof.Proof.Gen.Kernel.Frame
import proofs.«159502_j45801531244816_1_alg».proof.Proof.Gen.KernelIdeal
import proofs.«159502_j45801531244816_1_alg».proof.Proof.Gen.KernelIdeal.Skeleton
import proofs.«159502_j45801531244816_1_alg».proof.Proof.Gen.KernelIdeal.Launch
import proofs.«159502_j45801531244816_1_alg».proof.Proof.Gen.KernelIdeal.Points
import proofs.«159502_j45801531244816_1_alg».proof.Proof.Gen.KernelIdeal.Frame
import proofs.«159502_j45801531244816_1_alg».proof.Proof.Gen.ReferenceIdeal
import proofs.«159502_j45801531244816_1_alg».proof.Proof.Gen.Pre_finite_inputs
import proofs.«159502_j45801531244816_1_alg».proof.Proof.Gen.KernelIdeal.Value
import proofs.«159502_j45801531244816_1_alg».proof.Proof.Gen.ReferenceIdeal.Run
import proofs.«159502_j45801531244816_1_alg».proof.Proof.Gen.ReferenceIdeal.Read
import proofs.«159502_j45801531244816_1_alg».proof.Proof.ReferenceIsLayer
import proofs.«159502_j45801531244816_1_alg».proof.Proof.KernelArrays
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the layer's reconstruction and gated activations of arguments that agree. -/
theorem algebraic : Cert.algebraic_KernelIdeal_ReferenceIdeal := by
  intro m ρ m' ρ' _ hagree
  refine ⟨fun c => Cert.KernelIdeal.Arrays.reconArr m c, fun c => Cert.KernelIdeal.Arrays.codesArr m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v11_eq, Cert.ReferenceIdeal.IsLayer.recon_eq,
      (hagree c).1, (hagree c).2.1, (hagree c).2.2.1, (hagree c).2.2.2.1, (hagree c).2.2.2.2.1, (hagree c).2.2.2.2.2]
  · rw [Cert.ReferenceIdeal.Read.val_main_v7_eq, Cert.ReferenceIdeal.IsLayer.codes_eq,
      (hagree c).1, (hagree c).2.1, (hagree c).2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
